-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Finite.lean ====
/-
  What the precondition gives the proof: every entry of the weight matrix is a real number.

  The printed predicate is the conjunction of four tests "every |entry| < +∞", one per argument; each is an
  and-reduction of a comparison. The value claim needs only the second (the weights): the reference subtracts
  W and adds it back, which returns to where it started exactly when W's entry is finite.
-/
import proofs.«152453_j49168785605335_1_alg».proof.Pre_finite_inputs
import Idealize.ShloMosaic.PureOps.Ideal
import Idealize.ShloMosaic.Lib.ReduceAll
import Idealize.ShloMosaic.Lib.ValueIdx

noncomputable section

namespace Cert.BinLinear

open Idealize.ShloMosaic

/-- The rank-0 shape has one index. -/
instance : Subsingleton Cert.Pre_finite_inputs.S_.Idx := ⟨fun _ _ => funext fun d => d.elim0⟩

/-- An extended real whose absolute value `max w (−w)` lies strictly below the word of +∞ is a real number:
    at `w = ±∞` the absolute value is `+∞` itself. -/
theorem real_of_abs_lt_inf (w : EReal)
    (h : Ideal.cmp .olt (max w (-w)) (Ideal.ofBits .f32 0x7F800000#32) = 1#1) : ∃ r : ℝ, w = (r : EReal) := by
  have htop : Ideal.ofBits .f32 0x7F800000#32 = ⊤ := by simp [Ideal.ofBits, Ideal.ieee]
  rw [htop] at h
  induction w using EReal.rec with
  | bot => simp [Ideal.cmp] at h
  | coe r => exact ⟨r, rfl⟩
  | top => simp [Ideal.cmp] at h

/-- Under the precondition every entry of the second argument (the weights) is a real number. -/
theorem weights_real [Cert.Pre_finite_inputs.Facts]
    (x : FVec Ideal Cert.Pre_finite_inputs.S8192x4096 .f32) (W : FVec Ideal Cert.Pre_finite_inputs.S4096x4096 .f32)
    (α : FVec Ideal Cert.Pre_finite_inputs.S4096x1 .f32) (b : FVec Ideal Cert.Pre_finite_inputs.S4096 .f32)
    (h : Cert.Pre_finite_inputs.fn (F := Ideal) x W α b = fun _ => 1#1) (i : Cert.Pre_finite_inputs.S4096x4096.Idx) :
    ∃ r : ℝ, W i = (r : EReal) := by
  have h0 := congrFun h ValueIdx.ix0
  dsimp only [Cert.Pre_finite_inputs.fn, Cert.Pre_finite_inputs.fn_part1] at h0
  -- the conjunction is ((all x ∧ all W) ∧ all α) ∧ all b
  obtain ⟨h13, -⟩ := IntOp.andi_eq_one.1 h0
  obtain ⟨h8, -⟩ := IntOp.andi_eq_one.1 h13
  obtain ⟨-, h7⟩ := IntOp.andi_eq_one.1 h8
  have hi := Host.reduce_andi_all _ _ _ _ _ h7 i
  exact real_of_abs_lt_inf (W i) hi

end Cert.BinLinear

end
-- ==== Proof.Spec.lean ====
/-
  The mathematics of the binarized linear layer, free of any program text.

  For x : [8192, 4096], W : [4096, 4096], α : [4096, 1], b : [4096] the layer's output at (n, o) is

      Σ_i  x[n, i] · (sgn W[o, i] · α[o, 0])  +  b[o],        sgn w = 1 if w ≥ 0, else −1,

  on the extended reals. `target` is that function, index by index; both programs are shown to compute it.
  The comparison `w ≥ 0` is kept as the instance's own comparison of `w` with the word of 0.0: the same term
  stands on both sides and is never evaluated, and likewise the words of 1.0 and −1.0.
-/
import Idealize.ShloMosaic.PureOps.Ideal
import Idealize.ShloMosaic.Lib.ValueIdx

noncomputable section

namespace Cert.BinLinear

open Idealize.ShloMosaic Idealize.ShloMosaic.ValueIdx

/-- The four argument shapes and the result's. -/
abbrev Sx : Shape := ⟨2, ![8192, 4096]⟩
abbrev Sw : Shape := ⟨2, ![4096, 4096]⟩
abbrev Sa : Shape := ⟨2, ![4096, 1]⟩
abbrev Sb : Shape := ⟨1, ![4096]⟩

/-- `sgn w`: 1.0 where `w ≥ 0`, −1.0 elsewhere (the comparison and the two words as the programs spell them). -/
def sgn (w : EReal) : EReal :=
  Scalar.select (FloatOps.cmpf (F := Ideal) (φ := .f32) .oge w (Ideal.ofBits .f32 0x00000000#32))
    (Ideal.ofBits .f32 0x3F800000#32) (Ideal.ofBits .f32 0xBF800000#32)

/-- The binarized weight at (o, i): `sgn W[o, i] · α[o, 0]`. -/
def binw (W : Sw.Idx → EReal) (α : Sa.Idx → EReal) (o i : Fin 4096) : EReal :=
  sgn (W (ix2 o i)) * α (ix2 o 0)

/-- The layer's output: the row of `x` against the binarized row of `W`, plus the bias. -/
def target (x : Sx.Idx → EReal) (W : Sw.Idx → EReal) (α : Sa.Idx → EReal) (b : Sb.Idx → EReal) : Sx.Idx → EReal :=
  fun j => (∑ i : Fin 4096, x (ix2 (j 0) i) * binw W α (j 1) i) + b (ix1 (j 1))

/-- Adding back what was subtracted: `(a − w) + w = a` on the extended reals once `w` is a real number
    (at `w = ±∞` the difference is already infinite and the sum does not return to `a`). -/
theorem sub_add_cancel_of_real (a : EReal) (w : ℝ) : a - (w : EReal) + (w : EReal) = a := by
  induction a using EReal.rec with
  | bot => rfl
  | coe r => norm_cast; ring
  | top => rfl

end Cert.BinLinear

end
-- ==== Proof.RefTarget.lean ====
/-
  The reference computes `target`.

  Read one operation at a time, the reference forms sgn(W)·α, subtracts W and adds W back (the straight-through
  estimator's value), contracts x against the result along the input features, and adds the bias along the rows.
  At a real weight entry the subtraction and the addition cancel, so the contracted factor is the binarized weight.
-/
import proofs.«152453_j49168785605335_1_alg».proof.Proof.Gen.ReferenceIdeal.Read
import proofs.«152453_j49168785605335_1_alg».proof.Proof.Spec

noncomputable section

namespace Cert.BinLinear

open Idealize.ShloMosaic Idealize.ShloMosaic.ValueIdx Cert.ReferenceIdeal Cert.ReferenceIdeal.Read

/-- The factor the reference contracts against, at (o, i): `(sgn W · α − W) + W`, which is the binarized weight
    once `W[o, i]` is real. -/
theorem ref_weight (W : Sw.Idx → EReal) (α : Sa.Idx → EReal) (hW : ∀ i, ∃ r : ℝ, W i = (r : EReal)) (o i : Fin 4096) :
    val_main_v7 (F := Ideal) W α (ix2 o i) = binw W α o i := by
  have e4 : idx_main_v4 (ix2 o i) = ix2 o (0 : Fin 1) :=
    funext fun a => Fin.ext (by match a with | ⟨0, _⟩ => rfl | ⟨1, _⟩ => rfl)
  obtain ⟨r, hr⟩ := hW (ix2 o i)
  rw [val_main_v7_apply, val_main_v6_apply, val_main_v5_apply, val_main_v4_apply, e4, val_main_v3_apply, val_main_v2_apply,
    val_main_v1_apply, val_main_v0_apply, val_main_call0_v0_apply, val_main_call0_v1_apply, val_main_cst_apply,
    val_main_cst_0_apply, val_main_cst_1_apply]
  show (sgn (W (ix2 o i)) * α (ix2 o 0) - W (ix2 o i)) + W (ix2 o i) = sgn (W (ix2 o i)) * α (ix2 o 0)
  generalize sgn (W (ix2 o i)) * α (ix2 o 0) = a
  rw [hr]
  exact sub_add_cancel_of_real a r

/-- The reference's result is `target` of its arguments, when the weights are real. -/
theorem ref_eq (x : Sx.Idx → EReal) (W : Sw.Idx → EReal) (α : Sa.Idx → EReal) (b : Sb.Idx → EReal)
    (hW : ∀ i, ∃ r : ℝ, W i = (r : EReal)) :
    val_main_v11 (F := Ideal) x W α b = target x W α b := by
  funext j
  obtain ⟨p, q, rfl⟩ : ∃ (p : Fin 8192) (q : Fin 4096), j = ix2 p q := ⟨j 0, j 1, eq_ix2 j⟩
  have el : ∀ k : Fin 4096, lidx_main_v8 (ix2 p q) k = ix2 p k := fun k =>
    funext fun a => Fin.ext (by match a with | ⟨0, _⟩ => rfl | ⟨1, _⟩ => rfl)
  have er : ∀ k : Fin 4096, ridx_main_v8 (ix2 p q) k = ix2 q k := fun k =>
    funext fun a => Fin.ext (by match a with | ⟨0, _⟩ => rfl | ⟨1, _⟩ => rfl)
  have eb : idx_main_v9 (idx_main_v10 (ix2 p q)) = ix1 q :=
    funext fun a => Fin.ext (by match a with | ⟨0, _⟩ => rfl)
  rw [val_main_v11_apply, val_main_v8_apply, val_main_v10_apply, val_main_v9_apply, eb]
  show (∑ k : Fin 4096, x (lidx_main_v8 (ix2 p q) k) * val_main_v7 (F := Ideal) W α (ridx_main_v8 (ix2 p q) k)) + b (ix1 q)
    = (∑ k : Fin 4096, x (ix2 p k) * binw W α q k) + b (ix1 q)
  congr 1
  refine Finset.sum_congr rfl fun k _ => ?_
  rw [el, er, ref_weight W α hW]

end Cert.BinLinear

end
-- ==== Proof.Pieces.lean ====
/-
  What each control case of the body leaves behind, as one pure term of what it loaded.

  The body runs in three cases of the reduction coordinate k (the grid's innermost): the first K-block (k = 0:
  the accumulator is reset to zero, then updated), a middle one (updated only), and the last (updated, then the
  output block is written as accumulator + bias). The symbolic run of each case found the stores; here each
  list of stores is read back:
    first  : accumulator := update(x-block, W-block, α-block, zero)
    middle : accumulator := update(x-block, W-block, α-block, previous accumulator)
    last   : accumulator := the same update; output block := that accumulator + bias row.
  `update` and the bias addition are the body's own payload terms; nothing here depends on the float instance.
-/
import proofs.«152453_j49168785605335_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- First K-block: the accumulator ends at the update of the zero block (the reset is overwritten whole; the
    update reads the reset back). -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1 .f32) (x3 : Vec F S1x1024 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg5.read_unread,
    View.ld_unit_zero (S := S1024x1024) origin, View.ld_unit_zero (S := S1024x1) origin]

/-- A middle K-block: the accumulator ends at the update of what the point before left in it. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero origin]
  simp only [View.readAt_eq_ld, harg3.read_unread, harg4.read_unread, harg5.read_unread, harg8.read_unread,
    View.ld_unit_zero (S := S1024x1024) origin, View.ld_unit_zero (S := S1024x1) origin]

/-- The last K-block: the accumulator ends at the same update. -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg8.read_unread,
    View.ld_unit_zero (S := S1024x1024) origin, View.ld_unit_zero (S := S1024x1) origin]

/-- The last K-block: the output block is the final accumulator plus the bias row over every row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg6.read_unread, harg8.read_unread,
    View.readCov_unit_zero (S := S1024x1024) _ origin,
    View.ld_unit_zero (S := S1024x1024) origin, View.ld_unit_zero (S := S1024x1) origin, View.ld_unit_zero (S := S1x1024) origin]

end Cert.KernelIdeal.Pieces

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic, read at one entry of a block, on the extended reals.

  With xb the x-block (rows p, features k), wb the W-block (output channels q, features k) and ab the α-block
  (output channels q, one column), the update of an accumulator block `acc` is, at (p, q),

      acc[p, q] + Σ_k xb[p, k] · (sgn wb[q, k] · ab[q, 0]),

  the matrix unit's product into a zero accumulator being the plain sum over the contracted axis (both operands
  are contracted along their second axis), the casts to bf16 the identity, and the α column the same for every
  feature. The reset block is zero everywhere, and the output block adds the bias row's entry q to every row p.
-/
import proofs.«152453_j49168785605335_1_alg».proof.Proof.Gen.KernelIdeal.Skeleton
import proofs.«152453_j49168785605335_1_alg».proof.Proof.LibColumn
import proofs.«152453_j49168785605335_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Idealize.ShloMosaic.TcCoe
open Cert.KernelIdeal Cert.KernelIdeal.Gen Cert.BinLinear

/-! ## The block product's operand indices, axis by axis -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator at (p, q): row p of the left operand against row q of the right. -/
theorem block_product (l r : FVec Ideal S1024x1024 .bf16) (p q : Fin 1024) :
    FloatOps.matmul dot_S1024x1024_S1024x1024_S1024x1024_1_1_0_0_n_n none l r (constant S1024x1024 .f32 0x00000000#32) (ix2 p q)
      = ∑ k : Fin 1024, l (ix2 p k) * r (ix2 q k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The three payloads at an entry -/

/-- The reset block is zero at every entry. -/
theorem reset_apply (j : S1024x1024.Idx) : k0_pay1 (F := Ideal) j = 0 := by
  unfold k0_pay1
  refine (congrFun (shapeCast_self _ _) j).trans ?_
  exact Ideal.ofBits_zero_f32

/-- The update at (p, q): the accumulator's entry plus the block product of the x-block's row p with the binarized
    W-block's row q. -/
theorem update_apply (xb wb : Vec Ideal S1024x1024 .f32) (ab : Vec Ideal S1024x1 .f32) (acc : Vec Ideal S1024x1024 .f32)
    (p q : Fin 1024) :
    k0_pay2 (F := Ideal) xb wb ab acc (ix2 p q)
      = acc (ix2 p q) + ∑ k : Fin 1024, xb (ix2 p k) * (sgn (wb (ix2 q k)) * ab (ix2 q (0 : Fin 1))) := by
  unfold k0_pay2
  refine (congrFun (shapeCast_self _ _) (ix2 p q)).trans ?_
  refine (addf_apply _ _ _).trans ?_
  refine congrArg (acc (ix2 p q) + ·) ?_
  refine (block_product _ _ p q).trans ?_
  refine Finset.sum_congr rfl fun k _ => ?_
  show xb (ix2 p k) * (sgn (wb (ix2 q k)) * broadcastTo S1024x1024 ab broadcasts_S1024x1_S1024x1024 (ix2 q k)) = _
  rw [Cert.LibColumn.broadcastTo_a1_ab_apply]

/-- The output block at (p, q): the accumulator's entry plus the bias row's entry q. -/
theorem bias_apply (acc : Vec Ideal S1024x1024 .f32) (bb : Vec Ideal S1x1024 .f32) (p q : Fin 1024) :
    k0_pay3 (F := Ideal) acc bb (ix2 p q) = acc (ix2 p q) + bb (ix2 (0 : Fin 1) q) := by
  unfold k0_pay3
  refine (addf_apply _ _ _).trans ?_
  refine congrArg (acc (ix2 p q) + ·) ?_
  refine (broadcastTo_1b_ab_apply _ _ p q).trans ?_
  exact congrFun (shapeCast_self _ _) _

end Cert.KernelIdeal.Payload

end
-- ==== Proof.Accum.lean ====
/-
  The accumulator across the reduction axis, and the output block at the last K-block.

  The grid is 8 row blocks × 4 column blocks × 4 K-blocks, the K-block innermost: point t has row block t / 16,
  column block t / 4 mod 4 and K-block t mod 4. At point t the x-window holds rows (t / 16)·1024 + p and features
  (t mod 4)·1024 + k of x; the W-window output channels (t / 4 mod 4)·1024 + q and the same features of W; the
  α-window those channels' column; the bias window those channels' entries of the bias row.

  Write T(n, o, i) = x[n, i] · sgn W[o, i] · α[o, 0]. By induction over the points, after point t the accumulator
  holds at (p, q) the sum of T(n, o, ·) over the first (t mod 4) + 1 K-blocks of features, n and o the point's row and
  channel: the first K-block starts from zero, every later one adds its block's 1024 terms to what the point before
  left (the row and column blocks do not move inside a run of four points). At the last K-block the output block is
  that full sum plus the bias entry.
-/
import proofs.«152453_j49168785605335_1_alg».proof.Proof.Gen.KernelIdeal.Frame
import proofs.«152453_j49168785605335_1_alg».proof.Proof.Pieces
import proofs.«152453_j49168785605335_1_alg».proof.Proof.Payload

noncomputable section

namespace Cert.KernelIdeal.Accum

open Idealize.ShloMosaic Idealize.ShloMosaic.ValueIdx Idealize.ShloMosaic.TcCoe Idealize.SL.Sem
open Cert.KernelIdeal Cert.KernelIdeal.Gen Cert.BinLinear

variable (m : (ℓ : Loc nD τ sig) → Buf (Elt Ideal) ℓ)

/-! ## The arrays as the region finds them, and the windows' blocks, at their literal types -/

abbrev xarr (c : Dev nD) : Vec Ideal S8192x4096 .f32 := V m c main_arg0
abbrev warr (c : Dev nD) : Vec Ideal S4096x4096 .f32 := V m c main_arg1
abbrev aarr (c : Dev nD) : Vec Ideal S4096x1 .f32 := V m c main_arg2
abbrev barr (c : Dev nD) : Vec Ideal S1x4096 .f32 := V m c main_v0
abbrev xblk (c : Dev nD) (t : Fin cfg0.N) : Vec Ideal S1024x1024 .f32 := iblk m c 0 t
abbrev wblk (c : Dev nD) (t : Fin cfg0.N) : Vec Ideal S1024x1024 .f32 := iblk m c 1 t
abbrev ablk (c : Dev nD) (t : Fin cfg0.N) : Vec Ideal S1024x1 .f32 := iblk m c 2 t
abbrev bblk (c : Dev nD) (t : Fin cfg0.N) : Vec Ideal S1x1024 .f32 := iblk m c 3 t

theorem point_lt (t : Fin cfg0.N) : t.val < 128 := lt_of_lt_of_eq t.isLt (show cfg0.N = 128 from N_0)

/-- The five index maps in closed form, decided over the 128 points. -/
theorem index_maps : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = 0
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-! ## Each window's block read at an entry -/

theorem xblk_apply (c : Dev nD) (t : Fin cfg0.N) (p k : Fin 1024)
    (hr : t.val / 16 * 1024 + p.val < 8192) (hk : t.val % 4 * 1024 + k.val < 4096) :
    xblk m c t (ix2 p k) = xarr m c (ix2 ⟨t.val / 16 * 1024 + p.val, hr⟩ ⟨t.val % 4 * 1024 + k.val, hk⟩) := by
  obtain ⟨e0, e1, -⟩ := index_maps t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 1024 + 1 * p.val = t.val / 16 * 1024 + p.val; omega
  | ⟨1, _⟩ => show win0_0.index t (1 : Fin 2) * 1024 + 1 * k.val = t.val % 4 * 1024 + k.val; omega

theorem wblk_apply (c : Dev nD) (t : Fin cfg0.N) (q k : Fin 1024)
    (ho : t.val / 4 % 4 * 1024 + q.val < 4096) (hk : t.val % 4 * 1024 + k.val < 4096) :
    wblk m c t (ix2 q k) = warr m c (ix2 ⟨t.val / 4 % 4 * 1024 + q.val, ho⟩ ⟨t.val % 4 * 1024 + k.val, hk⟩) := by
  obtain ⟨-, -, e0, e1, -⟩ := index_maps t
  show V m c main_arg1 (((cfg0.win 1).blk t).view.emb (ix2 q k)) = V m c main_arg1 _
  refine congrArg (V m c main_arg1) (funext fun a => Fin.ext ?_)
  match a with
  | ⟨0, _⟩ => show win0_1.index t (0 : Fin 2) * 1024 + 1 * q.val = t.val / 4 % 4 * 1024 + q.val; omega
  | ⟨1, _⟩ => show win0_1.index t (1 : Fin 2) * 1024 + 1 * k.val = t.val % 4 * 1024 + k.val; omega

theorem ablk_apply (c : Dev nD) (t : Fin cfg0.N) (q : Fin 1024) (u : Fin 1)
    (ho : t.val / 4 % 4 * 1024 + q.val < 4096) :
    ablk m c t (ix2 q u) = aarr m c (ix2 ⟨t.val / 4 % 4 * 1024 + q.val, ho⟩ (0 : Fin 1)) := by
  obtain ⟨-, -, -, -, e0, e1, -⟩ := index_maps t
  show V m c main_arg2 (((cfg0.win 2).blk t).view.emb (ix2 q u)) = V m c main_arg2 _
  refine congrArg (V m c main_arg2) (funext fun a => Fin.ext ?_)
  match a with
  | ⟨0, _⟩ => show win0_2.index t (0 : Fin 2) * 1024 + 1 * q.val = t.val / 4 % 4 * 1024 + q.val; omega
  | ⟨1, _⟩ => show win0_2.index t (1 : Fin 2) * 1 + 1 * u.val = 0; have := u.isLt; omega

theorem bblk_apply (c : Dev nD) (t : Fin cfg0.N) (u : Fin 1) (q : Fin 1024)
    (ho : t.val / 4 % 4 * 1024 + q.val < 4096) :
    bblk m c t (ix2 u q) = barr m c (ix2 (0 : Fin 1) ⟨t.val / 4 % 4 * 1024 + q.val, ho⟩) := by
  obtain ⟨-, -, -, -, -, -, e0, e1, -⟩ := index_maps t
  show V m c main_v0 (((cfg0.win 3).blk t).view.emb (ix2 u q)) = V m c main_v0 _
  refine congrArg (V m c main_v0) (funext fun a => Fin.ext ?_)
  match a with
  | ⟨0, _⟩ => show win0_3.index t (0 : Fin 2) * 1 + 1 * u.val = 0; have := u.isLt; omega
  | ⟨1, _⟩ => show win0_3.index t (1 : Fin 2) * 1024 + 1 * q.val = t.val / 4 % 4 * 1024 + q.val; omega

/-! ## The summand and its partial sums over K-blocks -/

/-- `T(n, o, i) = x[n, i] · (sgn W[o, i] · α[o, 0])`, over natural-number coordinates (zero outside the arrays,
    which no point reaches). -/
def term (c : Dev nD) (n o i : ℕ) : EReal :=
  if h : n < 8192 ∧ o < 4096 ∧ i < 4096 then
    xarr m c (ix2 ⟨n, h.1⟩ ⟨i, h.2.2⟩) * binw (warr m c) (aarr m c) ⟨o, h.2.1⟩ ⟨i, h.2.2⟩
  else 0

theorem term_eq (c : Dev nD) (n o i : ℕ) (hn : n < 8192) (ho : o < 4096) (hi : i < 4096) :
    term m c n o i = xarr m c (ix2 ⟨n, hn⟩ ⟨i, hi⟩) * binw (warr m c) (aarr m c) ⟨o, ho⟩ ⟨i, hi⟩ :=
  dif_pos ⟨hn, ho, hi⟩

/-- The sum of `T` over the first `K` K-blocks of features, at row `R·1024 + p` and channel `C·1024 + q`. -/
def psum (c : Dev nD) (R C K : ℕ) (p q : Fin 1024) : EReal :=
  ∑ kb ∈ Finset.range K, ∑ k : Fin 1024, term m c (R * 1024 + p.val) (C * 1024 + q.val) (kb * 1024 + k.val)

theorem psum_zero (c : Dev nD) (R C : ℕ) (p q : Fin 1024) : psum m c R C 0 p q = 0 := Finset.sum_range_zero _

theorem psum_succ (c : Dev nD) (R C K : ℕ) (p q : Fin 1024) :
    psum m c R C (K + 1) p q
      = psum m c R C K p q + ∑ k : Fin 1024, term m c (R * 1024 + p.val) (C * 1024 + q.val) (K * 1024 + k.val) :=
  Finset.sum_range_succ _ _

/-- One term of point `t`'s block product is `T` at the point's row, channel and feature. -/
theorem step_term (c : Dev nD) (t : Fin cfg0.N) (p q k : Fin 1024) :
    xblk m c t (ix2 p k) * (sgn (wblk m c t (ix2 q k)) * ablk m c t (ix2 q (0 : Fin 1)))
      = term m c (t.val / 16 * 1024 + p.val) (t.val / 4 % 4 * 1024 + q.val) (t.val % 4 * 1024 + k.val) := by
  have ht := point_lt t
  have hr : t.val / 16 * 1024 + p.val < 8192 := by have := p.isLt; omega
  have ho : t.val / 4 % 4 * 1024 + q.val < 4096 := by have := q.isLt; omega
  have hk : t.val % 4 * 1024 + k.val < 4096 := by have := k.isLt; omega
  rw [term_eq m c _ _ _ hr ho hk, xblk_apply m c t p k hr hk, wblk_apply m c t q k ho hk, ablk_apply m c t q 0 ho]
  rfl

theorem step_sum (c : Dev nD) (t : Fin cfg0.N) (p q : Fin 1024) :
    ∑ k : Fin 1024, xblk m c t (ix2 p k) * (sgn (wblk m c t (ix2 q k)) * ablk m c t (ix2 q (0 : Fin 1)))
      = ∑ k : Fin 1024, term m c (t.val / 16 * 1024 + p.val) (t.val / 4 % 4 * 1024 + q.val) (t.val % 4 * 1024 + k.val) :=
  Finset.sum_congr rfl fun k _ => step_term m c t p q k

/-! ## The accumulator after each point -/

/-- A later K-block's update of an accumulator that holds the partial sum up to the K-block before. -/
theorem update_at (c : Dev nD) (t : Fin cfg0.N) (h0 : ¬t.val % 4 = 0) (prev : Vec Ideal S1024x1024 .f32)
    (hprev : ∀ p q : Fin 1024, prev (ix2 p q)
      = psum m c ((t.val - 1) / 16) ((t.val - 1) / 4 % 4) ((t.val - 1) % 4 + 1) p q) (p q : Fin 1024) :
    k0_pay2 (F := Ideal) (xblk m c t) (wblk m c t) (ablk m c t) prev (ix2 p q)
      = psum m c (t.val / 16) (t.val / 4 % 4) (t.val % 4 + 1) p q := by
  have e1 : (t.val - 1) / 16 = t.val / 16 := by omega
  have e2 : (t.val - 1) / 4 % 4 = t.val / 4 % 4 := by omega
  have e3 : (t.val - 1) % 4 + 1 = t.val % 4 := by omega
  refine (Payload.update_apply (xblk m c t) (wblk m c t) (ablk m c t) prev p q).trans ?_
  rw [step_sum, hprev p q, e1, e2, e3, psum_succ]

/-- At a first K-block the accumulator holds the first block's sum. -/
theorem acc_at_first (c : Dev nD) (t : Fin cfg0.N) (h0 : t.val % 4 = 0) (p q : Fin 1024) :
    (outsAt0 m c t.val t.isLt).2 (ix2 p q) = psum m c (t.val / 16) (t.val / 4 % 4) (t.val % 4 + 1) p q := by
  have h1 : ¬t.val % 4 = 3 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (Payload.update_apply (xblk m c t) (wblk m c t) (ablk m c t) (k0_pay1 (F := Ideal)) p q).trans ?_
  rw [step_sum, Payload.reset_apply, zero_add, psum_succ, h0, psum_zero, zero_add]

/-- At a later K-block the accumulator holds one block more than after the point before. -/
theorem acc_at_later (c : Dev nD) (t : Fin cfg0.N) (h0 : ¬t.val % 4 = 0)
    (ih : ∀ p q : Fin 1024, (outsAt0 m c (t.val - 1) (Nat.lt_of_le_of_lt (Nat.sub_le _ _) t.isLt)).2 (ix2 p q)
      = psum m c ((t.val - 1) / 16) ((t.val - 1) / 4 % 4) ((t.val - 1) % 4 + 1) p q) (p q : Fin 1024) :
    (outsAt0 m c t.val t.isLt).2 (ix2 p q) = psum m c (t.val / 16) (t.val / 4 % 4) (t.val % 4 + 1) p q := by
  by_cases h1 : t.val % 4 = 3
  · rw [outsAt0_C m c t h0 h1]
    dsimp only
    exact (congrFun (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans
      (update_at m c t h0 _ ih p q)
  · rw [outsAt0_B m c t h0 h1]
    dsimp only
    exact (congrFun (Pieces.acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans
      (update_at m c t h0 _ ih p q)

/-- THE INVARIANT: after point `n` the accumulator holds the sum over the first `n mod 4 + 1` K-blocks, at the
    point's row and column blocks. -/
theorem acc_inv (c : Dev nD) : ∀ (n : ℕ) (h : n < cfg0.N) (p q : Fin 1024),
    (outsAt0 m c n h).2 (ix2 p q) = psum m c (n / 16) (n / 4 % 4) (n % 4 + 1) p q := by
  intro n
  induction n with
  | zero => intro h p q; exact acc_at_first m c ⟨0, h⟩ rfl p q
  | succ n ih =>
    intro h p q
    by_cases h0 : (n + 1) % 4 = 0
    · exact acc_at_first m c ⟨n + 1, h⟩ h0 p q
    · exact acc_at_later m c ⟨n + 1, h⟩ h0 (fun p q => ih (Nat.lt_of_succ_lt h) p q) p q

/-- At a last K-block the output block holds the sum over all four K-blocks plus the channel's bias entry. -/
theorem out_at_last (c : Dev nD) (t : Fin cfg0.N) (h1 : t.val % 4 = 3) (p q : Fin 1024)
    (ho : t.val / 4 % 4 * 1024 + q.val < 4096) :
    (outsAt0 m c t.val t.isLt).1 (ix2 p q)
      = psum m c (t.val / 16) (t.val / 4 % 4) 4 p q + barr m c (ix2 (0 : Fin 1) ⟨t.val / 4 % 4 * 1024 + q.val, ho⟩) := by
  have h0 : ¬t.val % 4 = 0 := by omega
  have e4 : t.val % 4 + 1 = 4 := by omega
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  refine (Payload.bias_apply _ (bblk m c t) p q).trans ?_
  rw [update_at m c t h0 _ (fun p q => acc_inv m c (t.val - 1) _ p q) p q, e4, bblk_apply m c t 0 q ho]

end Cert.KernelIdeal.Accum

end
-- ==== Proof.Regroup.lean ====
/-
  Regrouping a long sum into consecutive blocks: the sum of f over the first a·b naturals is the sum, over the a
  blocks, of each block's b terms. Addition only needs to be commutative and associative, so this holds on the
  extended reals as on any commutative monoid.
-/
import Mathlib.Algebra.BigOperators.Fin
import Mathlib.Logic.Equiv.Fin.Basic

namespace Cert.BinLinear

theorem sum_blocks {M : Type*} [AddCommMonoid M] (a b : ℕ) (f : ℕ → M) :
    ∑ i : Fin (a * b), f i.val = ∑ kb ∈ Finset.range a, ∑ k : Fin b, f (kb * b + k.val) := by
  rw [Finset.sum_range (fun kb => ∑ k : Fin b, f (kb * b + k.val)),
    ← Equiv.sum_comp finProdFinEquiv (fun i : Fin (a * b) => f i.val), Fintype.sum_prod_type]
  refine Finset.sum_congr rfl fun x _ => Finset.sum_congr rfl fun y _ => ?_
  refine congrArg f ?_
  show y.val + b * x.val = x.val * b + y.val
  rw [Nat.mul_comm, Nat.add_comm]

end Cert.BinLinear
-- ==== Proof.Result.lean ====
/-
  The kernel's result array is `target` of its arguments.

  The output window is written back at the last K-block of every (row block, column block) pair: 32 blocks of
  1024 × 1024 that tile the [8192, 4096] result. What such a point writes back is, entry by entry, the sum over
  all four K-blocks — which regroups to the sum over all 4096 input features — plus the channel's bias entry
  (the bias row the region reads is the bias vector with a unit axis in front): the block of `target`. Every entry of
  the result lies in exactly the block of its row block and column block, so the array after the run is `target`.
-/
import proofs.«152453_j49168785605335_1_alg».proof.Proof.Gen.KernelIdeal.Value
import proofs.«152453_j49168785605335_1_alg».proof.Proof.Accum
import proofs.«152453_j49168785605335_1_alg».proof.Proof.Regroup
import Idealize.ShloMosaic.Lib.StableHlo.Run
import Idealize.ShloMosaic.Lib.ValueLayout

noncomputable section

namespace Cert.KernelIdeal.Result

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Accum Cert.BinLinear

variable (m : (ℓ : Loc nD τ sig) → Buf (Elt Ideal) ℓ) (ρ : Dev nD → PrngReg)

/-! ## The arrays the region finds are the arguments -/

theorem xarr_eq (c : Dev nD) : xarr m c = m ((c : Thread nD τ).loc main_arg0) := V_main_arg0 m c
theorem warr_eq (c : Dev nD) : warr m c = m ((c : Thread nD τ).loc main_arg1) := V_main_arg1 m c
theorem aarr_eq (c : Dev nD) : aarr m c = m ((c : Thread nD τ).loc main_arg2) := V_main_arg2 m c

/-- The bias row the region finds is the bias vector with a unit axis in front. -/
theorem barr_eq (c : Dev nD) :
    (barr m c : S1x4096.Idx → EReal) = shapeCast S1x4096 (m ((c : Thread nD τ).loc main_arg3)) shapeCasts_S4096_S1x4096 := by
  dsimp only [barr, V, hostOps0]; after_results; rfl

theorem barr_apply (c : Dev nD) (o : Fin 4096) :
    barr m c (ix2 (0 : Fin 1) o) = m ((c : Thread nD τ).loc main_arg3) (ix1 o) := by
  rw [barr_eq]; exact shapeCast_a_1a_apply _ _ 0 o

/-- The layer's output on core `c`'s arguments. -/
abbrev result (c : Dev nD) : S8192x4096.Idx → EReal :=
  target (m ((c : Thread nD τ).loc main_arg0)) (m ((c : Thread nD τ).loc main_arg1))
    (m ((c : Thread nD τ).loc main_arg2)) (m ((c : Thread nD τ).loc main_arg3))

/-! ## All four K-blocks are all 4096 features -/

theorem psum_full (c : Dev nD) (R C : ℕ) (p q : Fin 1024) (hn : R * 1024 + p.val < 8192) (ho : C * 1024 + q.val < 4096) :
    psum m c R C 4 p q
      = ∑ i : Fin 4096, xarr m c (ix2 ⟨R * 1024 + p.val, hn⟩ i) * binw (warr m c) (aarr m c) ⟨C * 1024 + q.val, ho⟩ i := by
  unfold psum
  rw [← sum_blocks 4 1024 (fun i => term m c (R * 1024 + p.val) (C * 1024 + q.val) i)]
  show ∑ i : Fin 4096, term m c (R * 1024 + p.val) (C * 1024 + q.val) i.val = _
  refine Finset.sum_congr rfl fun i _ => ?_
  exact term_eq m c _ _ _ hn ho i.isLt

/-! ## What a flushing point writes back -/

theorem emb_out (t : Fin cfg0.N) (p q : Fin 1024) (hn : t.val / 16 * 1024 + p.val < 8192) (ho : t.val / 4 % 4 * 1024 + q.val < 4096) :
    ((cfg0.win 4).blk t).view.emb (ix2 p q) = ix2 ⟨t.val / 16 * 1024 + p.val, hn⟩ ⟨t.val / 4 % 4 * 1024 + q.val, ho⟩ := by
  obtain ⟨-, -, -, -, -, -, -, -, e0, e1⟩ := index_maps t
  refine funext fun a => Fin.ext ?_
  match a with
  | ⟨0, _⟩ => show win0_4.index t (0 : Fin 2) * 1024 + 1 * p.val = t.val / 16 * 1024 + p.val; omega
  | ⟨1, _⟩ => show win0_4.index t (1 : Fin 2) * 1024 + 1 * q.val = t.val / 4 % 4 * 1024 + q.val; omega

/-- A point that writes the output back writes its block of `target`. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  have ht := point_lt t
  rw [Cert.KernelIdeal.Value.flushed4]
  refine funext fun (j : S1024x1024.Idx) => ?_
  obtain ⟨p, q, rfl⟩ : ∃ (p q : Fin 1024), j = ix2 p q := ⟨j 0, j 1, eq_ix2 j⟩
  have hn : t.val / 16 * 1024 + p.val < 8192 := by have := p.isLt; omega
  have ho : t.val / 4 % 4 * 1024 + q.val < 4096 := by have := q.isLt; omega
  show (outsAt0 m c t.val t.isLt).1 (ix2 p q) = result m c (((cfg0.win 4).blk t).view.emb (ix2 p q))
  rw [out_at_last m c t h1 p q ho, emb_out t p q hn ho, psum_full m c _ _ p q hn ho, barr_apply, xarr_eq, warr_eq, aarr_eq]
  rfl

/-! ## The flushing blocks cover the array -/

theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Entry (n, o) lies in the block written back at the last K-block of row block n / 1024, column block o / 1024. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  have hlt : (i 0).val / 1024 * 16 + (i 1).val / 1024 * 4 + 3 < cfg0.N := by omega
  refine ⟨⟨(i 0).val / 1024 * 16 + (i 1).val / 1024 * 4 + 3, hlt⟩, ?_, ?_⟩
  · exact (flush0_4 _).mpr (by show ((i 0).val / 1024 * 16 + (i 1).val / 1024 * 4 + 3) % 4 = 3; omega)
  · rw [mem_blk]
    obtain ⟨-, -, -, -, -, -, -, -, e0, e1⟩ := index_maps ⟨(i 0).val / 1024 * 16 + (i 1).val / 1024 * 4 + 3, hlt⟩
    dsimp only at e0 e1
    intro a
    match a with
    | ⟨0, _⟩ =>
      show win0_4.index ⟨(i 0).val / 1024 * 16 + (i 1).val / 1024 * 4 + 3, hlt⟩ (0 : Fin 2) * 1024 ≤ (i 0).val
        ∧ (i 0).val < win0_4.index ⟨(i 0).val / 1024 * 16 + (i 1).val / 1024 * 4 + 3, hlt⟩ (0 : Fin 2) * 1024 + 1024
      rw [e0]; omega
    | ⟨1, _⟩ =>
      show win0_4.index ⟨(i 0).val / 1024 * 16 + (i 1).val / 1024 * 4 + 3, hlt⟩ (1 : Fin 2) * 1024 ≤ (i 1).val
        ∧ (i 1).val < win0_4.index ⟨(i 0).val / 1024 * 16 + (i 1).val / 1024 * 4 + 3, hlt⟩ (1 : Fin 2) * 1024 + 1024
      rw [e1]; omega

/-! ## The array after the run, and the run -/

theorem final (c : Dev nD) : (dats m 0 c).arrAt 4 cfg0.N = result m c :=
  (dats m 0 c).arrAt_eq_of_cover 4 (result m c) (fun t hf => flushed_eq m c t hf) cover

/-- Every weakly fair execution of the idealized kernel ends with the result array at `target` of the arguments and
    the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Result

end
-- ==== Proof.lean ====
/-
  A binarized linear layer: out[n, o] = Σ_i x[n, i] · (sgn W[o, i] · α[o, 0]) + b[o], with sgn w = 1 for w ≥ 0
  and −1 otherwise, for x : [8192, 4096], W : [4096, 4096], α : [4096, 1], b : [4096].

  The kernel tiles the output into 1024 × 1024 blocks and the input features into four K-blocks of 1024; the K-block is
  the innermost grid coordinate. A scratch accumulator is zeroed at the first K-block, receives each K-block's product of
  the x-block with the binarized W-block (both operands cast to bf16, accumulated in f32), and at the last K-block the
  output block is written as accumulator + bias. The reference binarizes W, forms (sgn W · α − W) + W (the
  straight-through estimator's value), contracts x against it over all 4096 features at once, and adds the bias.

  Over the extended reals the two agree under the precondition that the inputs are finite:
    • a cast between float formats is the identity, and the matrix unit's product into a zero accumulator is the plain
      sum over the contracted axis, as the host's contraction is;
    • the four K-block sums, added in grid order starting from zero, regroup to the one sum over 4096 features
      (addition of extended reals is commutative and associative);
    • (a − w) + w = a when w is a real number, so the reference's weight is the binarized weight; this is the one place
      finiteness is used, and only of W (at w = ±∞ the sum does not return to a).
  Both programs' results are shown equal to one function of the arguments, `Cert.BinLinear.target`.

  The kernel's frame at both instances and what its run leaves in the accumulator and the output block point by point
  are the generated modules'; the reference's run and its operations read at an index likewise. The ideal pass rewrote
  nothing, so `preserves` has no conjunct to prove.
-/
import proofs.«152453_j49168785605335_1_alg».proof.Defs
import proofs.«152453_j49168785605335_1_alg».proof.Proof.Gen.Kernel
import proofs.«152453_j49168785605335_1_alg».proof.Proof.Gen.Kernel.Skeleton
import proofs.«152453_j49168785605335_1_alg».proof.Proof.Gen.Kernel.Launch
import proofs.«152453_j49168785605335_1_alg».proof.Proof.Gen.Kernel.Points
import proofs.«152453_j49168785605335_1_alg».proof.Proof.Gen.Kernel.Frame
import proofs.«152453_j49168785605335_1_alg».proof.Proof.Gen.KernelIdeal
import proofs.«152453_j49168785605335_1_alg».proof.Proof.Gen.KernelIdeal.Skeleton
import proofs.«152453_j49168785605335_1_alg».proof.Proof.Gen.KernelIdeal.Launch
import proofs.«152453_j49168785605335_1_alg».proof.Proof.Gen.KernelIdeal.Points
import proofs.«152453_j49168785605335_1_alg».proof.Proof.Gen.KernelIdeal.Frame
import proofs.«152453_j49168785605335_1_alg».proof.Proof.Gen.ReferenceIdeal
import proofs.«152453_j49168785605335_1_alg».proof.Proof.Gen.Pre_finite_inputs
import proofs.«152453_j49168785605335_1_alg».proof.Proof.Gen.KernelIdeal.Value
import proofs.«152453_j49168785605335_1_alg».proof.Proof.Gen.ReferenceIdeal.Run
import proofs.«152453_j49168785605335_1_alg».proof.Proof.Gen.ReferenceIdeal.Read
import proofs.«152453_j49168785605335_1_alg».proof.Proof.Finite
import proofs.«152453_j49168785605335_1_alg».proof.Proof.RefTarget
import proofs.«152453_j49168785605335_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is straight-line host code: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, with finite inputs, both programs end with the result array at
    `target` of the arguments: the kernel by its accumulation over the K-blocks, the reference by its operations read
    at an index and the cancellation at real weights. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2]
  exact Cert.BinLinear.ref_eq _ _ _ _ (fun i => Cert.BinLinear.weights_real _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
